-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256x64 : Shape := ⟨2, ![256, 64]⟩
abbrev S64 : Shape := ⟨1, ![64]⟩
abbrev S64x256 : Shape := ⟨2, ![64, 256]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S256x64 .f32) (main_arg2 : FVec F S64 .f32) (main_arg3 : FVec F S64x256 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S32x256x64x64 : Shape := ⟨4, ![32, 256, 64, 64]⟩
abbrev S256x64 : Shape := ⟨2, ![256, 64]⟩
abbrev S64 : Shape := ⟨1, ![64]⟩
abbrev S64x256 : Shape := ⟨2, ![64, 256]⟩
abbrev S256 : Shape := ⟨1, ![256]⟩
abbrev S32x256x4096 : Shape := ⟨3, ![32, 256, 4096]⟩
abbrev S1x64 : Shape := ⟨2, ![1, 64]⟩
abbrev S1x256 : Shape := ⟨2, ![1, 256]⟩
abbrev S1x256x4096 : Shape := ⟨3, ![1, 256, 4096]⟩
abbrev S256x4096 : Shape := ⟨2, ![256, 4096]⟩
abbrev S4096x256 : Shape := ⟨2, ![4096, 256]⟩
abbrev S256x256 : Shape := ⟨2, ![256, 256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S256x64, .f32⟩
  | .hbm, ⟨2, _⟩ => ⟨S64, .f32⟩
  | .hbm, ⟨3, _⟩ => ⟨S64x256, .f32⟩
  | .hbm, ⟨4, _⟩ => ⟨S256, .f32⟩
  | .hbm, ⟨5, _⟩ => ⟨S32x256x4096, .f32⟩
  | .hbm, ⟨6, _⟩ => ⟨S1x64, .f32⟩
  | .hbm, ⟨7, _⟩ => ⟨S1x256, .f32⟩
  | .hbm, ⟨8, _⟩ => ⟨S32x256x4096, .f32⟩
  | .hbm, ⟨9, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x64, .f32⟩
  | .local _ .vmem, ⟨3, _⟩ => ⟨S1x64, .f32⟩
  | .local _ .vmem, ⟨4, _⟩ => ⟨S64x256, .f32⟩
  | .local _ .vmem, ⟨5, _⟩ => ⟨S1x256, .f32⟩
  | .local _ .vmem, ⟨6, _⟩ => ⟨S1x256x4096, .f32⟩
  | .local _ .vmem, ⟨7, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  shapeCasts_S64_S1x64 : S64.ShapeCasts S1x64
  shapeCasts_S256_S1x256 : S256.ShapeCasts S1x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  transposes_S256x4096_p1_0_S4096x256 : S256x4096.Transposes [1, 0] S4096x256
  reduces_S256x4096_S256 : S256x4096.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  reduces_S256x256_S256 : S256x256.Reduces [1] S256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  broadcasts_S256x1_S256x4096 : S256x1.Broadcasts S256x4096
  shapeCasts_S256x4096_S1x256x4096 : S256x4096.ShapeCasts S1x256x4096
  shapeCasts_S32x256x4096_S32x256x64x64 : S32x256x4096.ShapeCasts S32x256x64x64
  dot_S256x4096_S4096x256_S256x256_1_0_0_1_n_n_wf : DotDims.WF S256x4096 S4096x256 S256x256 [1] [0] [0] [1] [] []
  dot_S1x256_S256x64_S1x64_1_0_0_1_n_n_wf : DotDims.WF S1x256 S256x64 S1x64 [1] [0] [0] [1] [] []
  dot_S1x64_S64x256_S1x256_1_0_0_1_n_n_wf : DotDims.WF S1x64 S64x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S32x256x4096.size a
  hwx0_5 : ∀ i : grid0.Coords, EltTy.bits .f32 = 32 ∨ (Rect.block (s := S32x256x4096) S1x256x4096.size (cc0_transform_5 i) (hinb0_5 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S256x64 : Shape := ⟨2, ![256, 64]⟩
abbrev S64 : Shape := ⟨1, ![64]⟩
abbrev S64x256 : Shape := ⟨2, ![64, 256]⟩
abbrev S256 : Shape := ⟨1, ![256]⟩
abbrev S32x256x4096 : Shape := ⟨3, ![32, 256, 4096]⟩
abbrev S_ : Shape := ⟨0, ![]⟩
abbrev S32x256 : Shape := ⟨2, ![32, 256]⟩
abbrev S32x256x256 : Shape := ⟨3, ![32, 256, 256]⟩
abbrev S32x256x1 : Shape := ⟨3, ![32, 256, 1]⟩
abbrev S32x1x256 : Shape := ⟨3, ![32, 1, 256]⟩
abbrev S32x64 : Shape := ⟨2, ![32, 64]⟩
abbrev S1x64 : Shape := ⟨2, ![1, 64]⟩
abbrev S1x256 : Shape := ⟨2, ![1, 256]⟩
abbrev S32x256x1x1 : Shape := ⟨4, ![32, 256, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S256x64, .f32⟩
  | .hbm, ⟨2, _⟩ => ⟨S64, .f32⟩
  | .hbm, ⟨3, _⟩ => ⟨S64x256, .f32⟩
  | .hbm, ⟨4, _⟩ => ⟨S256, .f32⟩
  | .hbm, ⟨5, _⟩ => ⟨S32x256x4096, .f32⟩
  | .hbm, ⟨6, _⟩ => ⟨S32x256x4096, .f32⟩
  | .hbm, ⟨7, _⟩ => ⟨S_, .f32⟩
  | .hbm, ⟨8, _⟩ => ⟨S32x256, .f32⟩
  | .hbm, ⟨9, _⟩ => ⟨S32x256x256, .f32⟩
  | .hbm, ⟨10, _⟩ => ⟨S32x256x1, .f32⟩
  | .hbm, ⟨11, _⟩ => ⟨S32x1x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256x256, .f32⟩
  | .hbm, ⟨21, _⟩ => ⟨S32x256x256, .f32⟩
  | .hbm, ⟨22, _⟩ => ⟨S_, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256x256, .f32⟩
  | .hbm, ⟨27, _⟩ => ⟨S32x256x256, .f32⟩
  | .hbm, ⟨28, _⟩ => ⟨S32x256x256, .f32⟩
  | .hbm, ⟨29, _⟩ => ⟨S_, .f32⟩
  | .hbm, ⟨30, _⟩ => ⟨S32x256, .f32⟩
  | .hbm, ⟨31, _⟩ => ⟨S_, .f32⟩
  | .hbm, ⟨32, _⟩ => ⟨S32x256, .f32⟩
  | .hbm, ⟨33, _⟩ => ⟨S32x256, .f32⟩
  | .hbm, ⟨34, _⟩ => ⟨S32x64, .f32⟩
  | .hbm, ⟨35, _⟩ => ⟨S1x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x256, .f32⟩
  | .hbm, ⟨42, _⟩ => ⟨S1x256, .f32⟩
  | .hbm, ⟨43, _⟩ => ⟨S32x256, .f32⟩
  | .hbm, ⟨44, _⟩ => ⟨S32x256, .f32⟩
  | .hbm, ⟨45, _⟩ => ⟨S32x256, .f32⟩
  | .hbm, ⟨46, _⟩ => ⟨S32x256, .f32⟩
  | .hbm, ⟨47, _⟩ => ⟨S_, .f32⟩
  | .hbm, ⟨48, _⟩ => ⟨S32x256, .f32⟩
  | .hbm, ⟨49, _⟩ => ⟨S32x256, .f32⟩
  | .hbm, ⟨50, _⟩ => ⟨S_, .f32⟩
  | .hbm, ⟨51, _⟩ => ⟨S32x256, .f32⟩
  | .hbm, ⟨52, _⟩ => ⟨S32x256, .f32⟩
  | .hbm, ⟨53, _⟩ => ⟨S32x256x1x1, .f32⟩
  | .hbm, ⟨54, _⟩ => ⟨S_, .f32⟩
  | .hbm, ⟨55, _⟩ => ⟨S32x256x1x1, .f32⟩
  | .hbm, ⟨56, _⟩ => ⟨S32x256x1x1, .f32⟩
  | .hbm, ⟨57, _⟩ => ⟨S32x256x64x64, .f32⟩
  | .hbm, ⟨58, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x4096_S32x256_d2 : S32x256x4096.ReducesTo [2] S32x256
  h_S_ : 0 < S_.numel
  bcast_S32x256_S32x256x1_0_1 : S32x256.BroadcastsInDim S32x256x1 (![0, 1] : Fin 2 → Fin S32x256x1.rank)
  bcast_S32x256_S32x1x256_0_2 : S32x256.BroadcastsInDim S32x1x256 (![0, 2] : Fin 2 → Fin S32x1x256.rank)
  bcast_S32x256x1_S32x256x256_0_1_2 : S32x256x1.BroadcastsInDim S32x256x256 (![0, 1, 2] : Fin 3 → Fin S32x256x256.rank)
  bcast_S32x1x256_S32x256x256_0_1_2 : S32x1x256.BroadcastsInDim S32x256x256 (![0, 1, 2] : Fin 3 → Fin S32x256x256.rank)
  bcast_S_S32x256x256 : S_.BroadcastsInDim S32x256x256 (![] : Fin 0 → Fin S32x256x256.rank)
  reducesTo_S32x256x256_S32x256_d2 : S32x256x256.ReducesTo [2] S32x256
  bcast_S_S32x256 : S_.BroadcastsInDim S32x256 (![] : Fin 0 → Fin S32x256.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S_S32x256x1x1 : S_.BroadcastsInDim S32x256x1x1 (![] : Fin 0 → Fin S32x256x1x1.rank)
  bcast_S32x256x1x1_S32x256x64x64_0_1_2_3 : S32x256x1x1.BroadcastsInDim S32x256x64x64 (![0, 1, 2, 3] : Fin 4 → Fin S32x256x64x64.rank)
  dot_S32x256x4096_S32x256x4096_S32x256x256_2_2_1_1_0_0_wf : DotDims.WF S32x256x4096 S32x256x4096 S32x256x256 [2] [2] [1] [1] [0] [0]
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []

variable [Facts₀]

def dot_S32x256x4096_S32x256x4096_S32x256x256_2_2_1_1_0_0 : DotDims S32x256x4096 S32x256x4096 S32x256x256 where
  lhsContracting := [2]
  rhsContracting := [2]
  lhsNonContracting := [1]
  rhsNonContracting := [1]
  lhsBatch := [0]
  rhsBatch := [0]
  wf := dot_S32x256x4096_S32x256x4096_S32x256x256_2_2_1_1_0_0_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf

class Facts : Prop extends Facts₀ where

variable [Facts]
-- ==== Proof.KdeSpec.lean ====
/-
  The mathematics of the kernel-density channel gate, for ONE batch element, on the extended reals.

  A batch element is a matrix x of 256 channels by 4096 pixels. Each channel is a point of a 4096-dimensional space;
  the squared distance between channels c and d is |x_c|² + |x_d|² − 2·⟨x_c, x_d⟩, clamped at zero, a Gaussian of
  bandwidth one turns it into an affinity exp(−d²/2), and a channel's density is its mean affinity to all 256
  channels. The 256 densities go through two small dense layers (256 → 64 with a clamp at zero, 64 → 256 with the
  logistic function), and the result, shifted by one half, scales the channel: out[c, n] = x[c, n] · gate[c].

  The float literals both programs carry (2, −1/2, 256, 1/2) stay the words they are printed as: the same word on both
  sides is never evaluated. Only the zero word is read (it is 0), and, for the reference, the word of 1.
-/
import Idealize.ShloMosaic.PureOps.Ideal
import Idealize.ShloMosaic.PureOps.Ideal.Laws
import Idealize.ShloMosaic.PureOps.IdealRules

noncomputable section

open Idealize.ShloMosaic
open scoped BigOperators

namespace Cert.Proof.KdeSpec

variable (x : Fin 256 → Fin 4096 → EReal)

/-- A channel's squared norm: the sum of its pixels' squares. -/
def sqNorm (c : Fin 256) : EReal := ∑ n : Fin 4096, x c n * x c n

/-- The inner product of two channels. -/
def gram (c d : Fin 256) : EReal := ∑ n : Fin 4096, x c n * x d n

/-- The Gaussian affinity of two channels: exp(−½ · max(|x_c|² + |x_d|² − 2⟨x_c, x_d⟩, 0)). -/
def affinity (c d : Fin 256) : EReal :=
  Ideal.exp (Ideal.ofBits .f32 0xBF000000#32
    * max (sqNorm x c + sqNorm x d - Ideal.ofBits .f32 0x40000000#32 * gram x c d) 0)

/-- A channel's density: its affinities to all channels, summed and divided by their number. -/
def density (c : Fin 256) : EReal :=
  Ideal.div (∑ d : Fin 256, affinity x c d) (Ideal.ofBits .f32 0x43800000#32)

/-- The first dense layer, clamped at zero. -/
def hidden (w1 : Fin 256 → Fin 64 → EReal) (b1 : Fin 64 → EReal) (r : Fin 64) : EReal :=
  max ((∑ c : Fin 256, density x c * w1 c r) + b1 r) 0

/-- The second dense layer through the logistic function, shifted by one half: the factor of channel c. -/
def gate (w1 : Fin 256 → Fin 64 → EReal) (b1 : Fin 64 → EReal) (w2 : Fin 64 → Fin 256 → EReal) (b2 : Fin 256 → EReal)
    (c : Fin 256) : EReal :=
  Ideal.logistic ((∑ r : Fin 64, hidden x w1 b1 r * w2 r c) + b2 c) + Ideal.ofBits .f32 0x3F000000#32

/-! ## Two facts of extended-real arithmetic the reference's spelling needs -/

/-- The word of 1.0 is the extended real 1. -/
theorem ofBits_one_f32 : Ideal.ofBits .f32 0x3F800000#32 = 1 := IdealRules.sign_bit.ideal_onePat .f32

/-- Dividing by one changes nothing, at the infinities too: x · 1⁻¹ = x. -/
theorem div_one (z : EReal) : Ideal.div z 1 = z := by
  have h := Ideal.div_coe (y := 1) one_ne_zero z
  rw [EReal.coe_one] at h
  rw [h, one_div, inv_one, EReal.coe_one, mul_one]

/-- The logistic function spelled as a quotient, 1 / (1 + e^(−z)), is the logistic function. -/
theorem logistic_eq (z : EReal) : Ideal.div 1 (1 + Ideal.exp (-z)) = Ideal.logistic z := rfl

end Cert.Proof.KdeSpec

end
-- ==== Proof.KdeLayout.lean ====
/-
  Three readings of layout operations at an index, over literal rank-one and rank-two shapes.

  A vector of length a viewed as a column [a, 1] reads its entry i at (i, 0); a column [a, 1] repeated along b columns
  reads, at (p, c), the column's entry p; and a sum along the second axis of an [a, b] matrix is, at row c, the sum of
  that row's b entries.
-/
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Proof.KdeLayout

variable {α : Type}

/-- A length-a vector cast to a column [a, 1] reads, at (i, u), the vector's entry i. -/
theorem column_of_vector {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast along b columns reads, at (p, c), the column's entry p. -/
theorem column_broadcast {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its second axis is, at row c, the sum of the row's entries. -/
theorem row_sum {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (c : Fin a) :
    multiReduction .add [1] ⟨1, ![a]⟩ src acc h hφ hacc (ix1 c) = ∑ k : Fin b, src (ix2 c k) := by
  rw [Ideal.multiReduction_add_single]
  refine Finset.sum_congr rfl fun k _ => congrArg src (funext fun ax => Fin.ext ?_)
  match ax with
  | ⟨0, _⟩ => rfl
  | ⟨1, _⟩ => rfl

/-- The same sum of 32-bit floats started from the zero word, its two side conditions spelled as a printed body carries
    them (the format is one the sum is compiled at; the start word is the sum's neutral word, both zero). -/
theorem row_sum_zero {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec 32) = 0x00000000#32) (c : Fin a) :
    multiReduction .add [1] ⟨1, ![a]⟩ src 0x00000000#32 h hφ hacc (ix1 c) = ∑ k : Fin b, src (ix2 c k) :=
  row_sum src 0x00000000#32 h hφ hacc c

end Cert.Proof.KdeLayout

end
-- ==== Proof.KdeProducts.lean ====
/-
  The kernel body's three matrix products, read at an index on the extended reals.

  Each multiplies an [A, K] matrix by a [K, B] matrix into a zero accumulator, contracting the first factor's second
  axis with the second factor's first. On the extended reals there is no rounding and no chunk order: entry (a, b) of the
  product is the plain sum over k of l[a, k] · r[k, b]. The contraction index of such a product has one coordinate, so
  the sum over it is a sum over k in Fin K; the four small lemmas before each product say which coordinate of each
  factor's index is the output's row, the output's column, or k.
-/
import proofs.«130036_j83202106458478_1_alg».proof.Proof.Gen.KernelIdeal.Skeleton
import proofs.«130036_j83202106458478_1_alg».proof.Proof.KdeSpec
import proofs.«130036_j83202106458478_1_alg».proof.Proof.KdeLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Proof.KdeKernel

open Cert.KernelIdeal Cert.KernelIdeal.Gen Cert.Proof.KdeLayout

/-! ## The Gram product: [256, 4096] times [4096, 256] -/

theorem lhs_gram_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_gram_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_gram_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_gram_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- Into a zero accumulator, entry (c, d) of the product is the sum over n of l[c, n] · r[n, d]. -/
theorem gram_product (l : FVec Ideal S256x4096 .bf16) (r : FVec Ideal S4096x256 .bf16) (c d : Fin 256) :
    matmul dot_S256x4096_S4096x256_S256x256_1_0_0_1_n_n none l r (constant S256x256 .f32 0x00000000#32) (ix2 c d)
      = ∑ n : Fin 4096, l (ix2 c n) * r (ix2 n d) := by
  simp only [matmul]
  rw [Ideal.matmul_constant_zero_apply, ← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 c d) ((ValueIdx.contrEquiv1 dot_S256x4096_S4096x256_S256x256_1_0_0_1_n_n 4096 rfl rfl).symm k) = ix2 c k := funext fun a => Fin.ext (by
    match a with
    | ⟨0, _⟩ => exact lhs_gram_0 _ _
    | ⟨1, _⟩ => exact (lhs_gram_1 _ _).trans hk)
  have er : dot_S256x4096_S4096x256_S256x256_1_0_0_1_n_n.rhsIdx (ix2 c d) ((ValueIdx.contrEquiv1 dot_S256x4096_S4096x256_S256x256_1_0_0_1_n_n 4096 rfl rfl).symm k) = ix2 k d := funext fun a => Fin.ext (by
    match a with
    | ⟨0, _⟩ => exact (rhs_gram_0 _ _).trans hk
    | ⟨1, _⟩ => exact rhs_gram_1 _ _)
  rw [el, er]

/-! ## The first dense layer's product: [1, 256] times [256, 64] -/

theorem lhs_fc1_0 (i : S1x64.Idx) (q : dot_S1x256_S256x64_S1x64_1_0_0_1_n_n.contr.Idx) :
    (dot_S1x256_S256x64_S1x64_1_0_0_1_n_n.lhsIdx i q 0).val = (i 0).val := by
  unfold DotDims.lhsIdx
  rw [dif_neg (show ¬(0 : Fin S1x256.rank) ∈ dot_S1x256_S256x64_S1x64_1_0_0_1_n_n.lhsBatch by decide), dif_pos (show (0 : Fin S1x256.rank) ∈ dot_S1x256_S256x64_S1x64_1_0_0_1_n_n.lhsNonContracting by decide)]
  rfl
theorem lhs_fc1_1 (i : S1x64.Idx) (q : dot_S1x256_S256x64_S1x64_1_0_0_1_n_n.contr.Idx) :
    (dot_S1x256_S256x64_S1x64_1_0_0_1_n_n.lhsIdx i q 1).val = (q ⟨0, by decide⟩).val :=
  dot_S1x256_S256x64_S1x64_1_0_0_1_n_n.lhsIdx_val_of_single rfl i q
theorem rhs_fc1_0 (i : S1x64.Idx) (q : dot_S1x256_S256x64_S1x64_1_0_0_1_n_n.contr.Idx) :
    (dot_S1x256_S256x64_S1x64_1_0_0_1_n_n.rhsIdx i q 0).val = (q ⟨0, by decide⟩).val :=
  dot_S1x256_S256x64_S1x64_1_0_0_1_n_n.rhsIdx_val_of_single rfl i q
theorem rhs_fc1_1 (i : S1x64.Idx) (q : dot_S1x256_S256x64_S1x64_1_0_0_1_n_n.contr.Idx) :
    (dot_S1x256_S256x64_S1x64_1_0_0_1_n_n.rhsIdx i q 1).val = (i 1).val := by
  unfold DotDims.rhsIdx
  rw [dif_neg (show ¬(1 : Fin S256x64.rank) ∈ dot_S1x256_S256x64_S1x64_1_0_0_1_n_n.rhsBatch by decide), dif_pos (show (1 : Fin S256x64.rank) ∈ dot_S1x256_S256x64_S1x64_1_0_0_1_n_n.rhsNonContracting by decide)]
  rfl

/-- Into a zero accumulator, entry (u, r) of the product is the sum over k of l[u, k] · w[k, r]. -/
theorem fc1_product (l : FVec Ideal S1x256 .f32) (w : FVec Ideal S256x64 .f32) (u : Fin 1) (r : Fin 64) :
    matmul dot_S1x256_S256x64_S1x64_1_0_0_1_n_n (some .fp32) l w (constant S1x64 .f32 0x00000000#32) (ix2 u r)
      = ∑ k : Fin 256, l (ix2 u k) * w (ix2 k r) := by
  simp only [matmul]
  rw [Ideal.matmul_constant_zero_apply, ← Equiv.sum_comp (ValueIdx.contrEquiv1 dot_S1x256_S256x64_S1x64_1_0_0_1_n_n 256 rfl rfl).symm]
  refine Finset.sum_congr rfl fun k _ => ?_
  have hk := ValueIdx.contrEquiv1_symm_val dot_S1x256_S256x64_S1x64_1_0_0_1_n_n 256 rfl rfl k
  have el : dot_S1x256_S256x64_S1x64_1_0_0_1_n_n.lhsIdx (ix2 u r) ((ValueIdx.contrEquiv1 dot_S1x256_S256x64_S1x64_1_0_0_1_n_n 256 rfl rfl).symm k) = ix2 u k := funext fun a => Fin.ext (by
    match a with
    | ⟨0, _⟩ => exact lhs_fc1_0 _ _
    | ⟨1, _⟩ => exact (lhs_fc1_1 _ _).trans hk)
  have er : dot_S1x256_S256x64_S1x64_1_0_0_1_n_n.rhsIdx (ix2 u r) ((ValueIdx.contrEquiv1 dot_S1x256_S256x64_S1x64_1_0_0_1_n_n 256 rfl rfl).symm k) = ix2 k r := funext fun a => Fin.ext (by
    match a with
    | ⟨0, _⟩ => exact (rhs_fc1_0 _ _).trans hk
    | ⟨1, _⟩ => exact rhs_fc1_1 _ _)
  rw [el, er]

/-! ## The second dense layer's product: [1, 64] times [64, 256] -/

theorem lhs_fc2_0 (i : S1x256.Idx) (q : dot_S1x64_S64x256_S1x256_1_0_0_1_n_n.contr.Idx) :
    (dot_S1x64_S64x256_S1x256_1_0_0_1_n_n.lhsIdx i q 0).val = (i 0).val := by
  unfold DotDims.lhsIdx
  rw [dif_neg (show ¬(0 : Fin S1x64.rank) ∈ dot_S1x64_S64x256_S1x256_1_0_0_1_n_n.lhsBatch by decide), dif_pos (show (0 : Fin S1x64.rank) ∈ dot_S1x64_S64x256_S1x256_1_0_0_1_n_n.lhsNonContracting by decide)]
  rfl
theorem lhs_fc2_1 (i : S1x256.Idx) (q : dot_S1x64_S64x256_S1x256_1_0_0_1_n_n.contr.Idx) :
    (dot_S1x64_S64x256_S1x256_1_0_0_1_n_n.lhsIdx i q 1).val = (q ⟨0, by decide⟩).val :=
  dot_S1x64_S64x256_S1x256_1_0_0_1_n_n.lhsIdx_val_of_single rfl i q
theorem rhs_fc2_0 (i : S1x256.Idx) (q : dot_S1x64_S64x256_S1x256_1_0_0_1_n_n.contr.Idx) :
    (dot_S1x64_S64x256_S1x256_1_0_0_1_n_n.rhsIdx i q 0).val = (q ⟨0, by decide⟩).val :=
  dot_S1x64_S64x256_S1x256_1_0_0_1_n_n.rhsIdx_val_of_single rfl i q
theorem rhs_fc2_1 (i : S1x256.Idx) (q : dot_S1x64_S64x256_S1x256_1_0_0_1_n_n.contr.Idx) :
    (dot_S1x64_S64x256_S1x256_1_0_0_1_n_n.rhsIdx i q 1).val = (i 1).val := by
  unfold DotDims.rhsIdx
  rw [dif_neg (show ¬(1 : Fin S64x256.rank) ∈ dot_S1x64_S64x256_S1x256_1_0_0_1_n_n.rhsBatch by decide), dif_pos (show (1 : Fin S64x256.rank) ∈ dot_S1x64_S64x256_S1x256_1_0_0_1_n_n.rhsNonContracting by decide)]
  rfl

/-- Into a zero accumulator, entry (u, c) of the product is the sum over k of l[u, k] · w[k, c]. -/
theorem fc2_product (l : FVec Ideal S1x64 .f32) (w : FVec Ideal S64x256 .f32) (u : Fin 1) (c : Fin 256) :
    matmul dot_S1x64_S64x256_S1x256_1_0_0_1_n_n (some .fp32) l w (constant S1x256 .f32 0x00000000#32) (ix2 u c)
      = ∑ k : Fin 64, l (ix2 u k) * w (ix2 k c) := by
  simp only [matmul]
  rw [Ideal.matmul_constant_zero_apply, ← Equiv.sum_comp (ValueIdx.contrEquiv1 dot_S1x64_S64x256_S1x256_1_0_0_1_n_n 64 rfl rfl).symm]
  refine Finset.sum_congr rfl fun k _ => ?_
  have hk := ValueIdx.contrEquiv1_symm_val dot_S1x64_S64x256_S1x256_1_0_0_1_n_n 64 rfl rfl k
  have el : dot_S1x64_S64x256_S1x256_1_0_0_1_n_n.lhsIdx (ix2 u c) ((ValueIdx.contrEquiv1 dot_S1x64_S64x256_S1x256_1_0_0_1_n_n 64 rfl rfl).symm k) = ix2 u k := funext fun a => Fin.ext (by
    match a with
    | ⟨0, _⟩ => exact lhs_fc2_0 _ _
    | ⟨1, _⟩ => exact (lhs_fc2_1 _ _).trans hk)
  have er : dot_S1x64_S64x256_S1x256_1_0_0_1_n_n.rhsIdx (ix2 u c) ((ValueIdx.contrEquiv1 dot_S1x64_S64x256_S1x256_1_0_0_1_n_n 64 rfl rfl).symm k) = ix2 k c := funext fun a => Fin.ext (by
    match a with
    | ⟨0, _⟩ => exact (rhs_fc2_0 _ _).trans hk
    | ⟨1, _⟩ => exact rhs_fc2_1 _ _)
  rw [el, er]

end Cert.Proof.KdeKernel

end
-- ==== Proof.KdePayload.lean ====
/-
  What the kernel's body stores for one batch element, read at an index on the extended reals.

  The body sees the batch element as a block x0 of shape [1, 256, 4096], viewed as a 256 × 4096 matrix of channels by
  pixels, and the four parameter blocks whole (the two bias vectors as rows [1, 64] and [1, 256]). Reading each
  operation at an index — the row sums, the column [256, 1] made of them and its transpose, the two broadcasts to
  [256, 256], the three products, the pointwise arithmetic — the value stored at (u, c, n) is x0[0, c, n] times the
  gate of channel c, the function KdeSpec.gate of the block's rows. The change to a narrower float format before the
  Gram product is the identity here, and the product's second factor is the first one transposed, so its entry (c, d)
  is the inner product of channels c and d.
-/
import proofs.«130036_j83202106458478_1_alg».proof.Proof.KdeProducts

noncomputable section

open Idealize.ShloMosaic Idealize.ShloMosaic.ValueIdx
open scoped BigOperators

namespace Cert.Proof.KdeKernel

open Cert.KernelIdeal Cert.KernelIdeal.Gen Cert.Proof.KdeLayout

/-- The exponential and the logistic function act entry by entry; a scalar literal is its word's value. -/
theorem exp_at {s : Shape} {φ : FTy} (a : FVec Ideal s φ) (i : s.Idx) : exp a i = Ideal.exp (a i) := rfl
theorem logistic_at {s : Shape} {φ : FTy} (a : FVec Ideal s φ) (i : s.Idx) : logistic a i = Ideal.logistic (a i) := rfl
theorem scalar_word (b : BitVec 32) : Scalar.ofBits (F := Ideal) .f32 b = Ideal.ofBits .f32 b := rfl

/-- The block viewed as a matrix: entry (c, n) is the block's entry (0, c, n). -/
theorem matrix_of_block (x0 : Vec Ideal S1x256x4096 .f32) (c : Fin 256) (n : Fin 4096) :
    k0_pay2 (F := Ideal) x0 (ix2 c n) = x0 (ix3 (0 : Fin 1) c n) := by
  unfold k0_pay2
  exact shapeCast_1ab_ab_apply x0 _ c n

/-- The row [1, 256] the body hands to its last step: at (u, c) it is the logistic function of the second dense
    layer at channel c, over the densities of the block's channels. -/
theorem gate_row (x0 : Vec Ideal S1x256x4096 .f32) (x1 : Vec Ideal S256x64 .f32) (x2 : Vec Ideal S1x64 .f32)
    (x3 : Vec Ideal S64x256 .f32) (x4 : Vec Ideal S1x256 .f32) (u : Fin 1) (c : Fin 256) :
    k0_pay3 (F := Ideal) x0 x1 x2 x3 x4 (ix2 u c) + Ideal.ofBits .f32 0x3F000000#32
      = KdeSpec.gate (fun c n => x0 (ix3 (0 : Fin 1) c n)) (fun c r => x1 (ix2 c r)) (fun r => x2 (ix2 u r))
          (fun r c => x3 (ix2 r c)) (fun c => x4 (ix2 u c)) c := by
  unfold k0_pay3
  simp (config := { proj := false }) only [logistic_at, exp_at, addf_apply, subf_apply, mulf_apply, divf_apply, maximumf_apply, broadcast_apply,
    scalar_word, truncf_apply, shapeCast_self, fc2_product, fc1_product, gram_product, transpose_ix2_apply,
    column_of_vector, column_broadcast, broadcastTo_1b_ab_apply, row_sum_zero, matrix_of_block, Ideal.ofBits_zero_f32]
  rfl

/-- The value the body stores at (u, c, n) of its output block: the block's entry (0, c, n) times the gate of
    channel c. The gate row is turned into a column, one half is added, the column is repeated along the 4096 pixels
    and multiplies the matrix entry by entry. -/
theorem stored_value (x0 : Vec Ideal S1x256x4096 .f32) (x1 : Vec Ideal S256x64 .f32) (x2 : Vec Ideal S1x64 .f32)
    (x3 : Vec Ideal S64x256 .f32) (x4 : Vec Ideal S1x256 .f32) (u : Fin 1) (c : Fin 256) (n : Fin 4096) :
    k0_pay1 (F := Ideal) (k0_pay2 x0) (k0_pay3 x0 x1 x2 x3 x4) (ix3 u c n)
      = x0 (ix3 (0 : Fin 1) c n)
        * KdeSpec.gate (fun c n => x0 (ix3 (0 : Fin 1) c n)) (fun c r => x1 (ix2 c r)) (fun r => x2 (ix2 (0 : Fin 1) r))
            (fun r c => x3 (ix2 r c)) (fun c => x4 (ix2 (0 : Fin 1) c)) c := by
  unfold k0_pay1
  simp (config := { proj := false }) only [shapeCast_ab_1ab_apply, mulf_apply, addf_apply, broadcast_apply, scalar_word,
    column_broadcast, transpose_ix2_apply, matrix_of_block]
  rw [gate_row]

end Cert.Proof.KdeKernel

end
-- ==== Proof.KdeBlocks.lean ====
/-
  From the kernel's 32 grid points to its output array.

  Grid point t handles batch element t: its input block is rows [t, t+1) of the input viewed [32, 256, 4096], the four
  parameter windows are the whole parameter arrays at every point, and its output block is rows [t, t+1) of the output
  array. By KdePayload the block stored at point t is, entry by entry, the input block times the channel gate of that
  batch element, so it is the restriction to block t of ONE function of the whole arrays (gated below). The 32 blocks
  tile the output array, so after the run the array is that function.
-/
import proofs.«130036_j83202106458478_1_alg».proof.Proof.Gen.KernelIdeal.Frame
import proofs.«130036_j83202106458478_1_alg».proof.Proof.KdePayload
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem
open scoped BigOperators

namespace Cert.Proof.KdeRun

open Cert.KernelIdeal Cert.KernelIdeal.Gen

variable (m : (ℓ : Loc nD τ sig) → Buf (Elt Ideal) ℓ) (ρ : Dev nD → PrngReg)

/-! ## The arrays as the region finds them, and the blocks of a point, at their literal types -/

abbrev xArr (c : Dev nD) : Vec Ideal S32x256x4096 .f32 := V m c main_v0
abbrev w1Arr (c : Dev nD) : Vec Ideal S256x64 .f32 := V m c main_arg1
abbrev b1Arr (c : Dev nD) : Vec Ideal S1x64 .f32 := V m c main_v1
abbrev w2Arr (c : Dev nD) : Vec Ideal S64x256 .f32 := V m c main_arg3
abbrev b2Arr (c : Dev nD) : Vec Ideal S1x256 .f32 := V m c main_v2

abbrev xBlk (c : Dev nD) (t : Fin cfg0.N) : Vec Ideal S1x256x4096 .f32 := iblk m c 0 t
abbrev w1Blk (c : Dev nD) (t : Fin cfg0.N) : Vec Ideal S256x64 .f32 := iblk m c 1 t
abbrev b1Blk (c : Dev nD) (t : Fin cfg0.N) : Vec Ideal S1x64 .f32 := iblk m c 2 t
abbrev w2Blk (c : Dev nD) (t : Fin cfg0.N) : Vec Ideal S64x256 .f32 := iblk m c 3 t
abbrev b2Blk (c : Dev nD) (t : Fin cfg0.N) : Vec Ideal S1x256 .f32 := iblk m c 4 t

/-- A grid point as a batch number. -/
abbrev batchOf (t : Fin cfg0.N) : Fin 32 := ⟨t.val, by have h := t.isLt; have e : cfg0.N = 32 := N_0; omega⟩

/-! ## The index maps, decided over the grid -/

/-- At point t the input and output windows sit at block row t of their arrays, and every parameter window at the
    origin. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## Each input block read at an index -/

/-- The input block of point t at (u, ch, n) is the input array at (t, ch, n). -/
theorem xBlk_apply (c : Dev nD) (t : Fin cfg0.N) (u : Fin 1) (ch : Fin 256) (n : Fin 4096) :
    xBlk m c t (ix3 u ch n) = xArr m c (ix3 (batchOf t) ch n) := by
  obtain ⟨e0, e1, e2, -⟩ := index_facts t
  show V m c main_v0 (((cfg0.win 0).blk t).view.emb (ix3 u ch n)) = V m c main_v0 (ix3 (batchOf t) ch n)
  refine congrArg _ (funext fun a => Fin.ext ?_)
  match a with
  | ⟨0, _⟩ => show win0_0.index t (0 : Fin 3) * 1 + 1 * u.val = t.val; have hu : u.val < 1 := u.isLt; omega
  | ⟨1, _⟩ => show win0_0.index t (1 : Fin 3) * 256 + 1 * ch.val = ch.val; omega
  | ⟨2, _⟩ => show win0_0.index t (2 : Fin 3) * 4096 + 1 * n.val = n.val; omega

/-- A parameter block is the whole parameter array. -/
theorem w1Blk_apply (c : Dev nD) (t : Fin cfg0.N) (ch : Fin 256) (r : Fin 64) :
    w1Blk m c t (ix2 ch r) = w1Arr m c (ix2 ch r) := by
  obtain ⟨-, -, -, e0, e1, -⟩ := index_facts t
  show V m c main_arg1 (((cfg0.win 1).blk t).view.emb (ix2 ch r)) = V m c main_arg1 (ix2 ch r)
  refine congrArg _ (funext fun a => Fin.ext ?_)
  match a with
  | ⟨0, _⟩ => show win0_1.index t (0 : Fin 2) * 256 + 1 * ch.val = ch.val; omega
  | ⟨1, _⟩ => show win0_1.index t (1 : Fin 2) * 64 + 1 * r.val = r.val; omega
theorem b1Blk_apply (c : Dev nD) (t : Fin cfg0.N) (u : Fin 1) (r : Fin 64) :
    b1Blk m c t (ix2 u r) = b1Arr m c (ix2 u r) := by
  obtain ⟨-, -, -, -, -, e0, e1, -⟩ := index_facts t
  show V m c main_v1 (((cfg0.win 2).blk t).view.emb (ix2 u r)) = V m c main_v1 (ix2 u r)
  refine congrArg _ (funext fun a => Fin.ext ?_)
  match a with
  | ⟨0, _⟩ => show win0_2.index t (0 : Fin 2) * 1 + 1 * u.val = u.val; omega
  | ⟨1, _⟩ => show win0_2.index t (1 : Fin 2) * 64 + 1 * r.val = r.val; omega
theorem w2Blk_apply (c : Dev nD) (t : Fin cfg0.N) (r : Fin 64) (ch : Fin 256) :
    w2Blk m c t (ix2 r ch) = w2Arr m c (ix2 r ch) := by
  obtain ⟨-, -, -, -, -, -, -, e0, e1, -⟩ := index_facts t
  show V m c main_arg3 (((cfg0.win 3).blk t).view.emb (ix2 r ch)) = V m c main_arg3 (ix2 r ch)
  refine congrArg _ (funext fun a => Fin.ext ?_)
  match a with
  | ⟨0, _⟩ => show win0_3.index t (0 : Fin 2) * 64 + 1 * r.val = r.val; omega
  | ⟨1, _⟩ => show win0_3.index t (1 : Fin 2) * 256 + 1 * ch.val = ch.val; omega
theorem b2Blk_apply (c : Dev nD) (t : Fin cfg0.N) (u : Fin 1) (ch : Fin 256) :
    b2Blk m c t (ix2 u ch) = b2Arr m c (ix2 u ch) := by
  obtain ⟨-, -, -, -, -, -, -, -, -, e0, e1, -⟩ := index_facts t
  show V m c main_v2 (((cfg0.win 4).blk t).view.emb (ix2 u ch)) = V m c main_v2 (ix2 u ch)
  refine congrArg _ (funext fun a => Fin.ext ?_)
  match a with
  | ⟨0, _⟩ => show win0_4.index t (0 : Fin 2) * 1 + 1 * u.val = u.val; omega
  | ⟨1, _⟩ => show win0_4.index t (1 : Fin 2) * 256 + 1 * ch.val = ch.val; omega

/-! ## The output array as one function of the arrays the region finds -/

/-- Entry (b, ch, n): the input there times the gate of channel ch of batch element b. -/
def gated (c : Dev nD) : Vec Ideal S32x256x4096 .f32 := fun j =>
  xArr m c j * KdeSpec.gate (fun ch n => xArr m c (ix3 (j 0) ch n)) (fun ch r => w1Arr m c (ix2 ch r))
    (fun r => b1Arr m c (ix2 (0 : Fin 1) r)) (fun r ch => w2Arr m c (ix2 r ch)) (fun ch => b2Arr m c (ix2 (0 : Fin 1) ch)) (j 1)

theorem hz3 : (![0, 0, 0] : Fin 3 → Nat) = fun _ => 0 := funext fun a => by fin_cases a <;> rfl
theorem hz2 : (![0, 0] : Fin 2 → Nat) = fun _ => 0 := funext fun a => by fin_cases a <;> rfl

/-- Where the output block of point t sits in the output array: (u, ch, n) is (t, ch, n). -/
theorem out_emb (t : Fin cfg0.N) (u : Fin 1) (ch : Fin 256) (n : Fin 4096) :
    ((cfg0.win 5).blk t).view.emb (ix3 u ch n) = ix3 (batchOf t) ch n := by
  obtain ⟨-, -, -, -, -, -, -, -, -, -, -, e0, e1, e2⟩ := index_facts t
  refine funext fun a => Fin.ext ?_
  match a with
  | ⟨0, _⟩ => show win0_5.index t (0 : Fin 3) * 1 + 1 * u.val = t.val; have hu : u.val < 1 := u.isLt; omega
  | ⟨1, _⟩ => show win0_5.index t (1 : Fin 3) * 256 + 1 * ch.val = ch.val; omega
  | ⟨2, _⟩ => show win0_5.index t (2 : Fin 3) * 4096 + 1 * n.val = n.val; omega

/-- What point t writes back is block t of gated. -/
theorem flushed_eq (c : Dev nD) (t : Fin cfg0.N) :
    (dats m 0 c).flushed 5 t = ((cfg0.win 5).blk t).view.read (Elt Ideal) (gated m c) := by
  show (cfg0.win 5).cut (grid0.coords t) ((dats m 0 c).after 5 t) = _
  rw [after0_5]
  unfold out0_5
  rw [View.canon_unit_zero hz3]
  simp only [View.ld_unit_zero (S := S1x256x4096) hz3, View.ld_unit_zero (S := S256x64) hz2, View.ld_unit_zero (S := S1x64) hz2,
    View.ld_unit_zero (S := S64x256) hz2, View.ld_unit_zero (S := S1x256) hz2]
  funext y
  obtain ⟨u, ch, n, rfl⟩ : ∃ (u : Fin 1) (ch : Fin 256) (n : Fin 4096), y = ix3 u ch n := ⟨y 0, y 1, y 2, eq_ix3 y⟩
  show k0_pay1 (F := Ideal) (k0_pay2 (xBlk m c t)) (k0_pay3 (xBlk m c t) (w1Blk m c t) (b1Blk m c t) (w2Blk m c t) (b2Blk m c t)) (ix3 u ch n)
    = gated m c (((cfg0.win 5).blk t).view.emb (ix3 u ch n))
  rw [Cert.Proof.KdeKernel.stored_value, out_emb]
  unfold gated
  simp only [xBlk_apply, w1Blk_apply, b1Blk_apply, w2Blk_apply, b2Blk_apply]

/-- An index of the output array is in point t's block iff each coordinate is in the block's range on its axis. -/
theorem mem_block (t : Fin cfg0.N) (i : S32x256x4096.Idx) :
    i ∈ ((cfg0.win 5).blk t).view.set ↔ ∀ a : Fin 3, win0_5.index t a * S1x256x4096.size a ≤ (i a).val ∧ (i a).val < win0_5.index t a * S1x256x4096.size a + S1x256x4096.size a := by
  show i ∈ ((View.whole main_v3).slice (win0_5.rect t)).set ↔ _
  rw [View.set_slice_whole, Rect.mem_set_unit]
  exact Iff.rfl

/-- The 32 blocks tile the output array: index (b, ch, n) is in the block of point b. -/
theorem cover (i : S32x256x4096.Idx) :
    ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 4096 := (i 2).isLt
  have eN : cfg0.N = 32 := N_0
  obtain ⟨t, ht⟩ : ∃ t : Fin cfg0.N, t.val = (i 0).val := ⟨⟨(i 0).val, by omega⟩, rfl⟩
  obtain ⟨-, -, -, -, -, -, -, -, -, -, -, e0, e1, e2⟩ := index_facts t
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- The output array after the run. -/
theorem final (c : Dev nD) : (dats m 0 c).arrAt 5 cfg0.N = gated m c :=
  (dats m 0 c).arrAt_eq_of_cover 5 (gated m c) (fun t _ => flushed_eq m c t) (cover)

/-! ## The reshapes around the region -/

/-- The region's input array is the first argument viewed [32, 256, 4096]; its two bias rows are the bias vectors viewed
    [1, 64] and [1, 256]. -/
theorem xArr_eq (c : Dev nD) :
    xArr m c = shapeCast S32x256x4096 (m ((c : Thread nD τ).loc main_arg0)) shapeCasts_S32x256x64x64_S32x256x4096 := by
  show StableHlo.after hostOps0 (fun b => m (c, b)) (Proc.devRef .tc main_v0) = _
  after_results
  rfl
theorem b1Arr_eq (c : Dev nD) :
    b1Arr m c = shapeCast S1x64 (m ((c : Thread nD τ).loc main_arg2)) shapeCasts_S64_S1x64 := by
  show StableHlo.after hostOps0 (fun b => m (c, b)) (Proc.devRef .tc main_v1) = _
  after_results
  rfl
theorem b2Arr_eq (c : Dev nD) :
    b2Arr m c = shapeCast S1x256 (m ((c : Thread nD τ).loc main_arg4)) shapeCasts_S256_S1x256 := by
  show StableHlo.after hostOps0 (fun b => m (c, b)) (Proc.devRef .tc main_v2) = _
  after_results
  rfl

/-- The program's result is the output array viewed [32, 256, 64, 64]. -/
theorem tail_result (c : Dev nD) :
    Pipeline.afterTail₀ cfgs (dats m) 0 (V0 m) [hostOps1] c main_v4
      = shapeCast S32x256x64x64 (gated m c) shapeCasts_S32x256x4096_S32x256x64x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = gated m c :=
    (Pipeline.withArrays_arr spec0 launch0.win.arr_inj c _ _ 5).trans (final m c)
  rw [hw]
  rfl

end Cert.Proof.KdeRun

end
-- ==== Proof.KdeReference.lean ====
/-
  The reference, stage by stage, is the channel gate of KdeSpec applied batch by batch.

  The reference views the input as [32, 256, 4096] and works on all 32 batch elements at once: squared norms [32, 256],
  the Gram matrices [32, 256, 256] as one batched product, affinities, densities [32, 256], two dense layers, the
  logistic function written out as 1 / (1 + e^(−z)), and the product with the input broadcast over the pixels. Read at an
  index, every stage at batch b is the corresponding function of KdeSpec of the b-th 256 × 4096 matrix. Three things
  differ in spelling from the specification and are equal on every extended real: a sum started from the zero word
  (0 + s = s), a division by the word of 1 after the product with −1/2 (z · 1⁻¹ = z), and the logistic function's
  quotient form.
-/
import proofs.«130036_j83202106458478_1_alg».proof.Proof.Gen.ReferenceIdeal.Read
import proofs.«130036_j83202106458478_1_alg».proof.Proof.KdeSpec

noncomputable section

open Idealize.ShloMosaic Idealize.ShloMosaic.ValueIdx
open scoped BigOperators

namespace Cert.Proof.KdeRef

open Cert.ReferenceIdeal Cert.ReferenceIdeal.Read

variable (a0 : FVec Ideal S32x256x64x64 .f32) (a1 : FVec Ideal S256x64 .f32) (a2 : FVec Ideal S64 .f32)
  (a3 : FVec Ideal S64x256 .f32) (a4 : FVec Ideal S256 .f32)

/-- Batch element b of the input viewed [32, 256, 4096], as a matrix of channels by pixels. -/
abbrev rows (b : Fin 32) : Fin 256 → Fin 4096 → EReal := fun c n => val_main_v0 (F := Ideal) a0 (ix3 b c n)

/-! ## Where each sum and each broadcast reads its operand -/

theorem at_sq (i : S32x256.Idx) (k : Fin 4096) : idx_main_v2 i k = ix3 (i 0) (i 1) k :=
  funext fun a => by match a with | ⟨0, _⟩ => rfl | ⟨1, _⟩ => rfl | ⟨2, _⟩ => rfl
theorem at_gram_l (i : S32x256x256.Idx) (k : Fin 4096) : lidx_main_v3 i k = ix3 (i 0) (i 1) k :=
  funext fun a => by match a with | ⟨0, _⟩ => rfl | ⟨1, _⟩ => rfl | ⟨2, _⟩ => rfl
theorem at_gram_r (i : S32x256x256.Idx) (k : Fin 4096) : ridx_main_v3 i k = ix3 (i 0) (i 2) k :=
  funext fun a => by match a with | ⟨0, _⟩ => rfl | ⟨1, _⟩ => rfl | ⟨2, _⟩ => rfl
theorem at_sq_col (i : S32x256x256.Idx) : idx_main_v4 (idx_main_v6 i) = ix2 (i 0) (i 1) :=
  funext fun a => by match a with | ⟨0, _⟩ => rfl | ⟨1, _⟩ => rfl
theorem at_sq_row (i : S32x256x256.Idx) : idx_main_v5 (idx_main_v7 i) = ix2 (i 0) (i 2) :=
  funext fun a => by match a with | ⟨0, _⟩ => rfl | ⟨1, _⟩ => rfl
theorem at_aff (i : S32x256.Idx) (k : Fin 256) : idx_main_v19 i k = ix3 (i 0) (i 1) k :=
  funext fun a => by match a with | ⟨0, _⟩ => rfl | ⟨1, _⟩ => rfl | ⟨2, _⟩ => rfl
theorem at_fc1_l (i : S32x64.Idx) (k : Fin 256) : lidx_main_v22 i k = ix2 (i 0) k :=
  funext fun a => by match a with | ⟨0, _⟩ => rfl | ⟨1, _⟩ => rfl
theorem at_fc1_r (i : S32x64.Idx) (k : Fin 256) : ridx_main_v22 i k = ix2 k (i 1) :=
  funext fun a => by match a with | ⟨0, _⟩ => rfl | ⟨1, _⟩ => rfl
theorem at_b1 (i : S32x64.Idx) : idx_main_v23 (idx_main_v24 i) = ix1 (i 1) :=
  funext fun a => by match a with | ⟨0, _⟩ => rfl
theorem at_fc2_l (i : S32x256.Idx) (k : Fin 64) : lidx_main_v27 i k = ix2 (i 0) k :=
  funext fun a => by match a with | ⟨0, _⟩ => rfl | ⟨1, _⟩ => rfl
theorem at_fc2_r (i : S32x256.Idx) (k : Fin 64) : ridx_main_v27 i k = ix2 k (i 1) :=
  funext fun a => by match a with | ⟨0, _⟩ => rfl | ⟨1, _⟩ => rfl
theorem at_b2 (i : S32x256.Idx) : idx_main_v28 (idx_main_v29 i) = ix1 (i 1) :=
  funext fun a => by match a with | ⟨0, _⟩ => rfl
theorem at_gate (i : S32x256x64x64.Idx) : idx_main_v37 (idx_main_v40 i) = ix2 (i 0) (i 1) :=
  funext fun a => by match a with | ⟨0, _⟩ => rfl | ⟨1, _⟩ => rfl

/-! ## The stages, each at a general index j: batch j 0, channel j 1 -/

/-- The squared norm of a channel of a batch element. -/
theorem sq_stage (j : S32x256.Idx) :
    val_main_v2 (F := Ideal) a0 j = KdeSpec.sqNorm (rows a0 (j 0)) (j 1) := by
  rw [val_main_v2_apply]
  simp only [at_sq, val_main_v1_apply, val_main_cst_apply, Ideal.ofBits_def, Ideal.mulf_def, Ideal.ofBits_zero_f32, zero_add]
  rfl

/-- The inner product of channels j 1 and j 2 of batch j 0. -/
theorem gram_stage (j : S32x256x256.Idx) :
    val_main_v3 (F := Ideal) a0 j = KdeSpec.gram (rows a0 (j 0)) (j 1) (j 2) := by
  rw [val_main_v3_apply]
  simp only [at_gram_l, at_gram_r]
  rfl

/-- The Gaussian affinity of channels j 1 and j 2 of batch j 0. The reference divides the exponent by the word of 1
    first. -/
theorem affinity_stage (j : S32x256x256.Idx) :
    val_main_v18 (F := Ideal) a0 j = KdeSpec.affinity (rows a0 (j 0)) (j 1) (j 2) := by
  simp only [val_main_v18_apply, val_main_v17_apply, val_main_v16_apply, val_main_cst_3_apply, val_main_v15_apply,
    val_main_v14_apply, val_main_cst_2_apply, val_main_v13_apply, val_main_v12_apply, val_main_cst_1_apply,
    val_main_v11_apply, val_main_v10_apply, val_main_v9_apply, val_main_cst_0_apply, val_main_v8_apply,
    val_main_v6_apply, val_main_v4_apply, val_main_v7_apply, val_main_v5_apply, sq_stage, gram_stage,
    Ideal.ofBits_def, Ideal.mulf_def, Ideal.addf_def, Ideal.subf_def, Ideal.maximumf_def, Ideal.hostDivf_def,
    Ideal.hostUnary_exp_def, Ideal.ofBits_zero_f32, KdeSpec.ofBits_one_f32, KdeSpec.div_one]
  rfl

/-- The density of channel j 1 of batch j 0: its affinities summed from the zero word and divided by 256. -/
theorem density_stage (j : S32x256.Idx) :
    val_main_v21 (F := Ideal) a0 j = KdeSpec.density (rows a0 (j 0)) (j 1) := by
  rw [val_main_v21_apply, val_main_v19_apply]
  simp only [affinity_stage, val_main_v20_apply, val_main_cst_5_apply, val_main_cst_4_apply, Ideal.ofBits_def,
    Ideal.hostDivf_def, Ideal.ofBits_zero_f32, zero_add]
  rfl

/-- The first dense layer at batch j 0, clamped at zero (the reference's clamp is a called function: a maximum with a
    broadcast zero). -/
theorem hidden_stage (j : S32x64.Idx) :
    val_main_v26 (F := Ideal) a0 a1 a2 j
      = KdeSpec.hidden (rows a0 (j 0)) (fun c r => a1 (ix2 c r)) (fun r => a2 (ix1 r)) (j 1) := by
  rw [val_main_v26_apply, val_main_v25_apply, val_main_v22_apply]
  simp only [at_fc1_r, density_stage, val_main_v24_apply, val_main_v23_apply, at_b1, val_main_call0_v0_apply,
    val_main_call0_cst_apply, Ideal.ofBits_def, Ideal.addf_def, Ideal.maximumf_def, Ideal.ofBits_zero_f32]
  rfl

/-- The second dense layer through the logistic function written as a quotient, plus one half: the gate of channel j 1
    of batch j 0. -/
theorem gate_stage (j : S32x256.Idx) :
    val_main_v36 (F := Ideal) a0 a1 a2 a3 a4 j + Ideal.ofBits .f32 0x3F000000#32
      = KdeSpec.gate (rows a0 (j 0)) (fun c r => a1 (ix2 c r)) (fun r => a2 (ix1 r)) (fun r c => a3 (ix2 r c))
          (fun c => a4 (ix1 c)) (j 1) := by
  rw [val_main_v36_apply, val_main_v34_apply, val_main_v32_apply, val_main_v31_apply, val_main_v30_apply, val_main_v27_apply]
  simp only [at_fc2_r, hidden_stage, val_main_v29_apply, val_main_v28_apply, at_b2, val_main_v35_apply,
    val_main_cst_7_apply, val_main_v33_apply, val_main_cst_6_apply, Ideal.ofBits_def, Ideal.addf_def, Ideal.hostDivf_def,
    Ideal.hostUnary_exp_def, Ideal.hostNegf_def, Ideal.negf_def, KdeSpec.ofBits_one_f32, KdeSpec.logistic_eq]
  rfl

/-- The reference's result at (b, c, h, w): the input there times the gate of channel c of batch b. -/
theorem result_stage (i : S32x256x64x64.Idx) :
    val_main_v41 (F := Ideal) a0 a1 a2 a3 a4 i
      = a0 i * KdeSpec.gate (rows a0 (i 0)) (fun c r => a1 (ix2 c r)) (fun r => a2 (ix1 r)) (fun r c => a3 (ix2 r c))
          (fun c => a4 (ix1 c)) (i 1) := by
  rw [val_main_v41_apply, val_main_v40_apply, val_main_v39_apply, val_main_v38_apply, val_main_cst_8_apply, val_main_v37_apply,
    Ideal.mulf_def, Ideal.addf_def, Ideal.ofBits_def, gate_stage]
  rfl

end Cert.Proof.KdeRef

end
-- ==== Proof.KdeBridge.lean ====
/-
  The kernel's run with its result named, and the result as the reference's.

  After the run the program's result buffer holds the output array of KdeBlocks viewed [32, 256, 64, 64], and the five
  argument arrays are as launched. Entry (b, ch, h, w) of that view is entry (b, ch, 64·h + w) of the array: the input
  there times the gate of channel ch of batch element b. The reference's result at (b, ch, h, w) is the same product
  (KdeReference), over the same view of the input; the kernel's bias rows [1, 64] and [1, 256] are the bias vectors.
-/
import proofs.«130036_j83202106458478_1_alg».proof.Proof.KdeBlocks
import proofs.«130036_j83202106458478_1_alg».proof.Proof.KdeReference

set_option maxRecDepth 16384

noncomputable section

open Idealize.ShloMosaic Idealize.ShloMosaic.TcCoe Idealize.ShloMosaic.ValueIdx Idealize.SL.Sem
open scoped BigOperators

namespace Cert.Proof.KdeRun

open Cert.KernelIdeal Cert.KernelIdeal.Gen

variable (m : (ℓ : Loc nD τ sig) → Buf (Elt Ideal) ℓ) (ρ : Dev nD → PrngReg)

/-- The program's result on core c: the gated array viewed [32, 256, 64, 64]. -/
def result (c : Dev nD) : Vec Ideal S32x256x64x64 .f32 :=
  shapeCast S32x256x64x64 (gated m c) shapeCasts_S32x256x4096_S32x256x64x64

/-- Every weakly fair execution of the idealized kernel ends with the result buffer at result and the arguments as
    launched: the generated frame run, its post read at the result (through the reshape after the region) and at each
    argument. -/
theorem kernel_run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

/-! ## The result as a function of the launch arguments -/

abbrev arg0 (c : Dev nD) : Vec Ideal S32x256x64x64 .f32 := m ((c.tc : Thread nD τ).loc main_arg0)
abbrev arg1 (c : Dev nD) : Vec Ideal S256x64 .f32 := m ((c.tc : Thread nD τ).loc main_arg1)
abbrev arg2 (c : Dev nD) : Vec Ideal S64 .f32 := m ((c.tc : Thread nD τ).loc main_arg2)
abbrev arg3 (c : Dev nD) : Vec Ideal S64x256 .f32 := m ((c.tc : Thread nD τ).loc main_arg3)
abbrev arg4 (c : Dev nD) : Vec Ideal S256 .f32 := m ((c.tc : Thread nD τ).loc main_arg4)

/-- The input viewed [32, 256, 4096] at (b, ch, 64·h + w) is the input at (b, ch, h, w): the same row-major position. -/
theorem view_apply (a : Vec Ideal S32x256x64x64 .f32) (b : Fin 32) (ch : Fin 256) (h w : Fin 64)
    (hw : h.val * 64 + w.val < 4096) :
    shapeCast S32x256x4096 a shapeCasts_S32x256x64x64_S32x256x4096 (ix3 b ch ⟨h.val * 64 + w.val, hw⟩) = a (ix4 b ch h w) :=
  shapeCast_apply a _ _ _ (by
    rw [Shape.rowMajor_val_four, Shape.rowMajor_val_three]
    show ((b.val * 256 + ch.val) * 64 + h.val) * 64 + w.val = (b.val * 256 + ch.val) * 4096 + (h.val * 64 + w.val)
    omega)

/-- The gated array over the launch arguments: the region finds the input viewed [32, 256, 4096], the two weight matrices
    as launched, and the bias vectors as rows. -/
theorem gated_eq (c : Dev nD) : gated m c = fun j =>
    shapeCast S32x256x4096 (arg0 m c) shapeCasts_S32x256x64x64_S32x256x4096 j
      * KdeSpec.gate (fun ch n => shapeCast S32x256x4096 (arg0 m c) shapeCasts_S32x256x64x64_S32x256x4096 (ix3 (j 0) ch n))
          (fun ch r => arg1 m c (ix2 ch r)) (fun r => arg2 m c (ix1 r)) (fun r ch => arg3 m c (ix2 r ch))
          (fun ch => arg4 m c (ix1 ch)) (j 1) := by
  funext j
  unfold gated
  rw [xArr_eq, b1Arr_eq, b2Arr_eq, show w1Arr m c = arg1 m c from V_main_arg1 m c, show w2Arr m c = arg3 m c from V_main_arg3 m c]
  simp only [shapeCast_a_1a_apply]

/-- The reference's result, as a function of the same arguments, is the kernel's. -/
theorem reference_eq_result (c : Dev nD) :
    Cert.ReferenceIdeal.Read.val_main_v41 (F := Ideal) (arg0 m c) (arg1 m c) (arg2 m c) (arg3 m c) (arg4 m c) = result m c := by
  funext i
  obtain ⟨b, ch, h, w, rfl⟩ : ∃ (b : Fin 32) (ch : Fin 256) (h : Fin 64) (w : Fin 64), i = ix4 b ch h w :=
    ⟨i 0, i 1, i 2, i 3, eq_ix4 i⟩
  have hw : h.val * 64 + w.val < 4096 := by have := h.isLt; have := w.isLt; omega
  have hr : result m c (ix4 b ch h w) = gated m c (ix3 b ch ⟨h.val * 64 + w.val, hw⟩) :=
    shapeCast_apply (gated m c) _ _ _ (by
      rw [Shape.rowMajor_val_three, Shape.rowMajor_val_four]
      show (b.val * 256 + ch.val) * 4096 + (h.val * 64 + w.val) = ((b.val * 256 + ch.val) * 64 + h.val) * 64 + w.val
      omega)
  rw [Cert.Proof.KdeRef.result_stage, hr, gated_eq]
  dsimp only
  rw [view_apply]
  rfl

end Cert.Proof.KdeRun

end
-- ==== Proof.lean ====
/-
  The certificate of a kernel-density channel gate against its array-level reference.

  Both programs take an input x of shape [32, 256, 64, 64] and the parameters of two small dense layers. For each batch
  element the 256 channels are points of a 4096-dimensional space; channel c's density is the mean over all channels d
  of the Gaussian affinity exp(−½ · max(|x_c|² + |x_d|² − 2⟨x_c, x_d⟩, 0)); the densities pass through a 256 → 64 layer
  clamped at zero and a 64 → 256 layer followed by the logistic function; and the result is x scaled, channel by channel,
  by that value plus one half.

  The kernel runs one grid point per batch element on the input viewed [32, 256, 4096] and forms the Gram matrix, the
  row sums and both layers inside one body; the reference computes the same quantities for all batch elements at once,
  with the logistic function written as 1 / (1 + e^(−z)) and a division by one after the factor −½. On the extended reals
  a change of float format is the identity, a matrix product is the plain sum over the contracted axis, a sum from the
  zero word is the sum, z / 1 = z and the quotient form is the logistic function, so both results are one function of the
  arguments, entry by entry; no use of the inputs' finiteness is made. The idealization rewrote nothing, so there is
  nothing to preserve. The frames of the kernel at both readings are the generated ones; the reference's is its
  generated run with the result dropped.
-/
import proofs.«130036_j83202106458478_1_alg».proof.Defs
import proofs.«130036_j83202106458478_1_alg».proof.Proof.Gen.Kernel
import proofs.«130036_j83202106458478_1_alg».proof.Proof.Gen.Kernel.Skeleton
import proofs.«130036_j83202106458478_1_alg».proof.Proof.Gen.Kernel.Launch
import proofs.«130036_j83202106458478_1_alg».proof.Proof.Gen.Kernel.Points
import proofs.«130036_j83202106458478_1_alg».proof.Proof.Gen.Kernel.Frame
import proofs.«130036_j83202106458478_1_alg».proof.Proof.Gen.KernelIdeal
import proofs.«130036_j83202106458478_1_alg».proof.Proof.Gen.KernelIdeal.Skeleton
import proofs.«130036_j83202106458478_1_alg».proof.Proof.Gen.KernelIdeal.Launch
import proofs.«130036_j83202106458478_1_alg».proof.Proof.Gen.KernelIdeal.Points
import proofs.«130036_j83202106458478_1_alg».proof.Proof.Gen.KernelIdeal.Frame
import proofs.«130036_j83202106458478_1_alg».proof.Proof.Gen.ReferenceIdeal
import proofs.«130036_j83202106458478_1_alg».proof.Proof.Gen.ReferenceIdeal.Run
import proofs.«130036_j83202106458478_1_alg».proof.Proof.Gen.ReferenceIdeal.Read
import proofs.«130036_j83202106458478_1_alg».proof.Proof.Gen.Pre_finite_inputs
import proofs.«130036_j83202106458478_1_alg».proof.Proof.KdeBridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the gated input: the kernel's result buffer holds
    it by the kernel's run, and the reference's result, read stage by stage, is the same function of the arguments. -/
theorem algebraic : Cert.algebraic_KernelIdeal_ReferenceIdeal := by
  intro m ρ m' ρ' _ hagree
  refine ⟨fun c => Cert.Proof.KdeRun.result m c, Cert.Proof.KdeRun.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2]
  exact Cert.Proof.KdeRun.reference_eq_result m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
